-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) (main_arg6 : FVec F S128x64 .f32) (main_arg7 : FVec F S64 .f32) (main_arg8 : FVec F S64x32 .f32) (main_arg9 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x128 : Shape := ⟨2, ![1, 128]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 99
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S1x128, .f32⟩
  | .hbm, ⟨77, _⟩ => ⟨S1x64, .f32⟩
  | .hbm, ⟨78, _⟩ => ⟨S100000x64, .f32⟩
  | .hbm, ⟨79, _⟩ => ⟨S100000x32, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x32, .f32⟩
  | .hbm, ⟨89, _⟩ => ⟨S1700000x1, .f32⟩
  | .hbm, ⟨90, _⟩ => ⟨S1700000x32, .f32⟩
  | .hbm, ⟨91, _⟩ => ⟨S1700000x32, .f32⟩
  | .hbm, ⟨92, _⟩ => ⟨S_, .f32⟩
  | .hbm, ⟨93, _⟩ => ⟨S100000x32, .f32⟩
  | .hbm, ⟨94, _⟩ => ⟨S1700000x1, .i32⟩
  | .hbm, ⟨95, _⟩ => ⟨S100000x32, .f32⟩
  | .hbm, ⟨96, _⟩ => ⟨S1x32, .f32⟩
  | .hbm, ⟨97, _⟩ => ⟨S100000x32, .f32⟩
  | .hbm, ⟨98, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S128_S1x128 : S128.ShapeCasts S1x128
  shapeCasts_S64_S1x64 : S64.ShapeCasts S1x64
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x32, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x32, .f32⟩
  | .hbm, ⟨100, _⟩ => ⟨S1700000x1, .f32⟩
  | .hbm, ⟨101, _⟩ => ⟨S1700000x32, .f32⟩
  | .hbm, ⟨102, _⟩ => ⟨S1700000x32, .f32⟩
  | .hbm, ⟨103, _⟩ => ⟨S_, .f32⟩
  | .hbm, ⟨104, _⟩ => ⟨S100000x32, .f32⟩
  | .hbm, ⟨105, _⟩ => ⟨S1700000x1, .i32⟩
  | .hbm, ⟨106, _⟩ => ⟨S100000x32, .f32⟩
  | .hbm, ⟨107, _⟩ => ⟨S1x32, .f32⟩
  | .hbm, ⟨108, _⟩ => ⟨S100000x32, .f32⟩
  | .hbm, ⟨109, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibRowWise.lean ====
/-
  An [R, C] array of extended reals described ROW BY ROW. `Rows V f` says that the array `V` holds `f p q` at row `p`,
  column `q`. A network that treats the rows of a batch independently of one another (products with fixed weight
  matrices, a bias row added to every row, pointwise nonlinearities) keeps such a description through each of its
  operations whatever the number of rows is, so that a block of rows and the whole batch are read by the same lemmas:

  * pointwise: sum, difference, product, maximum, tanh, the logistic function (as one operation, and spelt
    1 / (1 + exp (-x)) with the float word of 1.0), a change of float format (the identity on extended reals);
  * a product with a [K, C] matrix on the right, by the matrix unit into a zero accumulator and by the host's dot
    product: row p of the result is row p of the left operand times the matrix;
  * matrix number o of a stack [n, K, C], cut out and viewed as [K, C];
  * row number o of a stack [n, 1, C], cut out, viewed as a [1, C] row and repeated down R rows (both spellings of
    the repetition);
  * a scalar repeated over the whole array (both spellings).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«133308_j89498528514672_1_alg».proof.Proof.LibPlainDot

noncomputable section

open scoped BigOperators

namespace Idealize.ShloMosaic.RowWise

open Idealize.ShloMosaic Idealize.ShloMosaic.ValueIdx

/-- The array `V` holds `f p q` at row `p`, column `q`. -/
def Rows {R C : ℕ} (V : (⟨2, ![R, C]⟩ : Shape).Idx → EReal) (f : Fin R → Fin C → EReal) : Prop :=
  ∀ (p : Fin R) (q : Fin C), V (ix2 p q) = f p q

variable {R C : ℕ} {φ : FTy}

/-- Every array is described by its own entries. -/
theorem rows_self (V : (⟨2, ![R, C]⟩ : Shape).Idx → EReal) : Rows V fun p q => V (ix2 p q) := fun _ _ => rfl

/-- A description may be replaced by an equal one. -/
theorem Rows.congr {V : (⟨2, ![R, C]⟩ : Shape).Idx → EReal} {f g : Fin R → Fin C → EReal} (h : Rows V f)
    (e : ∀ p q, f p q = g p q) : Rows V g := fun p q => (h p q).trans (e p q)

/-- Two arrays with one description are equal. -/
theorem Rows.ext {V W : (⟨2, ![R, C]⟩ : Shape).Idx → EReal} {f : Fin R → Fin C → EReal} (hV : Rows V f) (hW : Rows W f) :
    V = W := funext fun j => by
  obtain ⟨p, q, rfl⟩ : ∃ (p : Fin R) (q : Fin C), j = ix2 p q := ⟨j 0, j 1, eq_ix2 j⟩
  exact (hV p q).trans (hW p q).symm

/-! ## Pointwise operations -/

theorem rows_addf {a b : FVec Ideal ⟨2, ![R, C]⟩ φ} {f g : Fin R → Fin C → EReal} (ha : Rows a f) (hb : Rows b g) :
    Rows (addf a b) fun p q => f p q + g p q := fun p q =>
  (addf_apply a b (ix2 p q)).trans (by rw [ha p q, hb p q])

theorem rows_subf {a b : FVec Ideal ⟨2, ![R, C]⟩ φ} {f g : Fin R → Fin C → EReal} (ha : Rows a f) (hb : Rows b g) :
    Rows (subf a b) fun p q => f p q - g p q := fun p q =>
  (subf_apply a b (ix2 p q)).trans (by rw [ha p q, hb p q])

theorem rows_mulf {a b : FVec Ideal ⟨2, ![R, C]⟩ φ} {f g : Fin R → Fin C → EReal} (ha : Rows a f) (hb : Rows b g) :
    Rows (mulf a b) fun p q => f p q * g p q := fun p q =>
  (mulf_apply a b (ix2 p q)).trans (by rw [ha p q, hb p q])

theorem rows_maximumf {a b : FVec Ideal ⟨2, ![R, C]⟩ φ} {f g : Fin R → Fin C → EReal} (ha : Rows a f) (hb : Rows b g) :
    Rows (maximumf a b) fun p q => max (f p q) (g p q) := fun p q =>
  (maximumf_apply a b (ix2 p q)).trans (by rw [ha p q, hb p q])

/-- A narrowing change of float format keeps every entry. -/
theorem rows_truncf {ψ : FTy} {a : FVec Ideal ⟨2, ![R, C]⟩ φ} {f : Fin R → Fin C → EReal} (h : ψ.bits < φ.bits)
    (ha : Rows a f) : Rows (truncf ψ a h : FVec Ideal ⟨2, ![R, C]⟩ ψ) f := fun p q =>
  (truncf_apply a h (ix2 p q)).trans (ha p q)

/-- The kernel's hyperbolic tangent. -/
theorem rows_tanh {a : FVec Ideal ⟨2, ![R, C]⟩ φ} {f : Fin R → Fin C → EReal} (ha : Rows a f) :
    Rows (tanh a) fun p q => Ideal.tanh (f p q) := fun p q =>
  (show tanh a (ix2 p q) = Ideal.tanh (a (ix2 p q)) from rfl).trans (by rw [ha p q])

/-- The host's hyperbolic tangent is the same function. -/
theorem rows_hostTanh {a : FVec Ideal ⟨2, ![R, C]⟩ φ} {f : Fin R → Fin C → EReal} (ha : Rows a f) :
    Rows (Host.tanh a) fun p q => Ideal.tanh (f p q) := fun p q =>
  (show Host.tanh a (ix2 p q) = Ideal.tanh (a (ix2 p q)) from rfl).trans (by rw [ha p q])

/-- The logistic function as one operation. -/
theorem rows_logistic {a : FVec Ideal ⟨2, ![R, C]⟩ φ} {f : Fin R → Fin C → EReal} (ha : Rows a f) :
    Rows (logistic a) fun p q => Ideal.logistic (f p q) := fun p q =>
  (show logistic a (ix2 p q) = Ideal.logistic (a (ix2 p q)) from rfl).trans (by rw [ha p q])

/-- The logistic function spelt out on the host, 1 / (1 + exp (-x)), with both ones the float word of 1.0: on the
    extended reals this IS the logistic function, at the infinities too. -/
theorem rows_hostLogistic {a u v : FVec Ideal ⟨2, ![R, C]⟩ .f32} {f : Fin R → Fin C → EReal} (ha : Rows a f)
    (hu : Rows u fun _ _ => Ideal.ofBits .f32 0x3F800000#32) (hv : Rows v fun _ _ => Ideal.ofBits .f32 0x3F800000#32) :
    Rows (Host.divf u (addf v (Host.exp (Host.negf a)))) fun p q => Ideal.logistic (f p q) := fun p q => by
  show FloatOps.hostDivf (u (ix2 p q)) (FloatOps.addf (v (ix2 p q)) (FloatOps.hostUnary .exp (FloatOps.hostNegf (a (ix2 p q))))) = _
  rw [hu p q, hv p q, ha p q, Ideal.ofBits_one_f32]
  rfl

/-! ## Products with a matrix on the right -/

/-- The matrix unit into a zero accumulator: row p of the result is row p of the left operand times the matrix. -/
theorem rows_matmul {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (matmul D prec l r (constant ⟨2, ![R, C]⟩ .f32 0x00000000#32)) fun p q => ∑ k : Fin K, f p k * w k q := fun p q =>
  (PlainDot.matmul_zero_apply hD prec l r p q).trans (Finset.sum_congr rfl fun k _ => by rw [hl p k, hr k q])

/-- The host's dot product: the same sum. -/
theorem rows_dotGeneral {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (Host.dotGeneral D prec l r) fun p q => ∑ k : Fin K, f p k * w k q := fun p q =>
  (PlainDot.dotGeneral_apply hD prec .single l r p q).trans (Finset.sum_congr rfl fun k _ => by rw [hl p k, hr k q])

/-! ## Pieces of stacked parameters -/

/-- Matrix number `o` of a stack of `n` matrices, cut out as a [1, K, C] block and viewed as [K, C]. -/
theorem rows_stackedMatrix {n K : ℕ} (W : (⟨3, ![n, K, C]⟩ : Shape).Idx → EReal) (o : Fin n)
    (hs : (⟨3, ![n, K, C]⟩ : Shape).Slices ![o.val, 0, 0] ⟨3, ![1, K, C]⟩)
    (hc : (⟨3, ![1, K, C]⟩ : Shape).ShapeCasts ⟨2, ![K, C]⟩) :
    Rows (shapeCast ⟨2, ![K, C]⟩ (extractStridedSlice ⟨3, ![1, K, C]⟩ ![o.val, 0, 0] W hs) hc) fun k q => W (ix3 o k q) :=
  fun k q => (shapeCast_1ab_ab_apply _ hc k q).trans
    (extractStridedSlice_apply _ W hs _ (ix3 o k q) fun a => match a with
      | ⟨0, _⟩ => rfl
      | ⟨1, _⟩ => (Nat.zero_add _).symm
      | ⟨2, _⟩ => (Nat.zero_add _).symm)

/-- A [1, 1, C] block viewed as a [1, C] row keeps its entries. -/
theorem shapeCast_11c_1c_apply {α : Type} (x : (⟨3, ![1, 1, C]⟩ : Shape).Idx → α)
    (h : (⟨3, ![1, 1, C]⟩ : Shape).ShapeCasts ⟨2, ![1, C]⟩) (p : Fin 1) (q : Fin C) :
    shapeCast ⟨2, ![1, C]⟩ x h (ix2 p q) = x (ix3 (0 : Fin 1) (0 : Fin 1) q) :=
  shapeCast_apply x h _ _ (by
    have hp : p.val = 0 := by omega
    rw [Shape.rowMajor_val_three, Shape.rowMajor_val_two]
    show (0 * 1 + 0) * C + q.val = p.val * C + q.val
    rw [hp])

/-- Row number `o` of a stack [n, 1, C] at column `q`, after it is cut out and viewed as a [1, C] row. -/
theorem stackedRow_apply {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩) (q : Fin C) :
    shapeCast ⟨2, ![1, C]⟩ (extractStridedSlice ⟨3, ![1, 1, C]⟩ ![o.val, 0, 0] b hs) hc (ix2 (0 : Fin 1) q)
      = b (ix3 o (0 : Fin 1) q) :=
  (shapeCast_11c_1c_apply _ hc 0 q).trans
    (extractStridedSlice_apply _ b hs _ (ix3 o (0 : Fin 1) q) fun a => match a with
      | ⟨0, _⟩ => rfl
      | ⟨1, _⟩ => rfl
      | ⟨2, _⟩ => (Nat.zero_add _).symm)

/-- That row repeated down `R` rows by the kernel's broadcast. -/
theorem rows_stackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).Broadcasts ⟨2, ![R, C]⟩) :
    Rows (broadcastTo ⟨2, ![R, C]⟩ (shapeCast ⟨2, ![1, C]⟩ (extractStridedSlice ⟨3, ![1, 1, C]⟩ ![o.val, 0, 0] b hs) hc) hb)
      fun _ q => b (ix3 o (0 : Fin 1) q) :=
  fun p q => (broadcastTo_1b_ab_apply _ hb p q).trans (stackedRow_apply b o hs hc q)

/-- A [1, C] row repeated down `R` rows by the host's broadcast along both axes. -/
theorem broadcastInDim_1c_rc_apply {α : Type} (v : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if C = 1 then 0 else q.val
    split
    · have := q.isLt; omega
    · rfl

/-- The stack's row repeated down `R` rows by the host's broadcast. -/
theorem rows_hostStackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).BroadcastsInDim ⟨2, ![R, C]⟩ ![0, 1]) :
    Rows (broadcastInDim ⟨2, ![R, C]⟩ ![0, 1] hb (shapeCast ⟨2, ![1, C]⟩ (extractStridedSlice ⟨3, ![1, 1, C]⟩ ![o.val, 0, 0] b hs) hc))
      fun _ q => b (ix3 o (0 : Fin 1) q) :=
  fun p q => (broadcastInDim_1c_rc_apply _ hb p q).trans (stackedRow_apply b o hs hc q)

/-! ## A scalar over the whole array -/

/-- The kernel's splat of a scalar. -/
theorem rows_broadcast (x : EReal) : Rows (broadcast ⟨2, ![R, C]⟩ x) fun _ _ => x := fun _ _ => rfl

/-- The host's broadcast of a rank-0 constant. -/
theorem rows_hostConstant (w : BitVec (FTy.bits φ)) (h : (⟨0, ![]⟩ : Shape).BroadcastsInDim ⟨2, ![R, C]⟩ ![]) :
    Rows (broadcastInDim ⟨2, ![R, C]⟩ ![] h (constant (F := Ideal) ⟨0, ![]⟩ φ w)) fun _ _ => Ideal.ofBits φ w :=
  fun p q => broadcastInDim_apply ![] h _ (ix2 p q) ix0 fun a => a.elim0

end Idealize.ShloMosaic.RowWise

end
-- ==== Proof.Blocks0.lean ====
/-
  The first dense product, x @ W1, computed 5000 rows at a time.

  The region's output array has 100000 rows and 64 columns; grid point t writes rows 5000 t … 5000 t + 4999. On the
  extended reals the narrowing of both operands to half width is the identity, so the block a point writes is the
  product of its 5000 rows of the left array with the whole right array, and the array after the region holds, at row
  r and column q, the sum over k of left (r, k) * right (k, q): the same matrix product taken on all rows at once.
-/
import proofs.«133308_j89498528514672_1_alg».proof.Proof.Gen.KernelIdeal.Frame
import proofs.«133308_j89498528514672_1_alg».proof.Proof.LibRowWise
import Idealize.ShloMosaic.Lib.Pipeline.Value
import Idealize.ShloMosaic.Lib.ValueIdx

set_option maxRecDepth 16384

noncomputable section

open scoped BigOperators

namespace Cert.KernelIdeal.Blocks0

open Cert.KernelIdeal Cert.KernelIdeal.Gen
open Idealize.ShloMosaic Idealize.ShloMosaic.TcCoe Idealize.SL.Sem
open Idealize.ShloMosaic.ValueIdx Idealize.ShloMosaic.RowWise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: entry (r, q) is the sum over k of left (r, k) * right (k, q). -/
def prod (a0 : S100000x128.Idx → EReal) (a2 : S128x64.Idx → EReal) : S100000x64.Idx → EReal :=
  fun i => ∑ k : Fin 128, a0 (ix2 ⟨(i 0).val, (i 0).isLt⟩ k) * a2 (ix2 k ⟨(i 1).val, (i 1).isLt⟩)

theorem rows_prod (a0 : S100000x128.Idx → EReal) (a2 : S128x64.Idx → EReal) :
    Rows (prod a0 a2) fun r q => ∑ k : Fin 128, a0 (ix2 r k) * a2 (ix2 k q) := fun _ _ => rfl

/-- The body's stored value, row by row: a block of rows times the right operand. -/
theorem rows_pay (x0 : Vec Ideal S5000x128 .f32) (x1 : Vec Ideal S128x64 .f32) :
    Rows (k0_pay1 x0 x1) fun p q => ∑ k : Fin 128, x0 (ix2 p k) * x1 (ix2 k q) := by
  unfold k0_pay1
  exact rows_matmul ⟨rfl, rfl, rfl, rfl, rfl, rfl⟩ none (rows_truncf _ (rows_self x0)) (rows_truncf _ (rows_self x1))

/-- Where the windows' blocks sit: the left operand's and the output's block at point t start at row 5000 t, the
    right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of its array. -/
theorem left_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's block at every point is its whole array. -/
theorem right_apply (c : Dev nD) (t : Fin cfg0.N) (x : S128x64.Idx) :
    (iblk0 V c 1 t : Vec Ideal S128x64 .f32) x = (V c main_arg2 : S128x64.Idx → EReal) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- What point t writes back is block t of the whole product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  obtain ⟨-, -, -, -, e0, e1⟩ := idx_facts t
  rw [View.read_apply]
  unfold prod
  refine (rows_pay _ _ p q).trans (Finset.sum_congr rfl fun k _ => ?_)
  refine congrArg₂ (· * ·) (left_apply V c t _ _ ?_ rfl) (right_apply V c t _ |>.trans ?_)
  · show win0_2.index t 0 * 5000 + 1 * p.val = 5000 * t.val + p.val
    rw [e0]; omega
  · refine congrArg (V c main_arg2 : S128x64.Idx → EReal) ?_
    funext a
    apply Fin.ext
    match a with
    | ⟨0, _⟩ => rfl
    | ⟨1, _⟩ => show q.val = win0_2.index t 1 * 64 + 1 * q.val; rw [e1]; omega

/-- The output's blocks cover its array: row r lies in the block of point r / 5000. -/
theorem cover (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have ht : (i 0).val / 5000 < cfg0.N := by rw [show cfg0.N = 20 from N_0]; omega
  refine ⟨⟨(i 0).val / 5000, ht⟩, flush0_2 _, ?_⟩
  obtain ⟨-, -, -, -, e0, e1⟩ := idx_facts ⟨(i 0).val / 5000, ht⟩
  show i ∈ ((View.whole main_v32).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val ∧ (i 1).val < win0_2.index ⟨(i 0).val / 5000, ht⟩ 1 * 64 + 64
    rw [e1]; omega

/-- The array after the region is the whole product of the arrays the region found. -/
theorem final (c : Dev nD) : (dat0 V c).arrAt 2 cfg0.N = prod (V c main_arg0) (V c main_arg2) :=
  (dat0 V c).arrAt_eq_of_cover 2 _ (fun t _ => flushed_eq V c t) cover

end Cert.KernelIdeal.Blocks0

end
-- ==== Proof.Blocks1.lean ====
/-
  The fused two-layer block relu (relu (h @ Wl1 + bl1) @ Wl2 + bl2), computed 5000 rows at a time.

  Every row of the result depends on the same row of h only: with zero the float word of 0.0,
    a j = max ((sum over k of h k * Wl1 (k, j)) + bl1 j, zero),   out q = max ((sum over j of a j * Wl2 (j, q)) + bl2 q, zero).
  Grid point t reads rows 5000 t … 5000 t + 4999 of h and the whole weight and bias arrays, and writes the same rows
  of the output; the narrowings to half width are the identity on the extended reals. So the array after the region
  holds that function of row r at every row r, whatever the tiling.
-/
import proofs.«133308_j89498528514672_1_alg».proof.Proof.Gen.KernelIdeal.Frame
import proofs.«133308_j89498528514672_1_alg».proof.Proof.LibRowWise
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Blocks1

open Cert.KernelIdeal Cert.KernelIdeal.Gen
open Idealize.ShloMosaic Idealize.ShloMosaic.TcCoe Idealize.SL.Sem
open Idealize.ShloMosaic.ValueIdx Idealize.ShloMosaic.RowWise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The float word of zero read as an extended real. -/
abbrev zero : EReal := Ideal.ofBits .f32 0x00000000#32

/-- The two layers on one row. -/
def row (h : Fin 64 → EReal) (w1 : Fin 64 → Fin 128 → EReal) (b1 : Fin 128 → EReal) (w2 : Fin 128 → Fin 64 → EReal)
    (b2 : Fin 64 → EReal) : Fin 64 → EReal :=
  fun q => max ((∑ j : Fin 128, max ((∑ k : Fin 64, h k * w1 k j) + b1 j) zero * w2 j q) + b2 q) zero

theorem row_congr {h h' : Fin 64 → EReal} {w1 w1' : Fin 64 → Fin 128 → EReal} {b1 b1' : Fin 128 → EReal}
    {w2 w2' : Fin 128 → Fin 64 → EReal} {b2 b2' : Fin 64 → EReal} {q q' : Fin 64}
    (eh : ∀ k, h k = h' k) (e1 : ∀ k j, w1 k j = w1' k j) (f1 : ∀ j, b1 j = b1' j) (e2 : ∀ j q, w2 j q = w2' j q)
    (f2 : ∀ q, b2 q = b2' q) (eq : q = q') : row h w1 b1 w2 b2 q = row h' w1' b1' w2' b2' q' := by
  obtain rfl : h = h' := funext eh
  obtain rfl : w1 = w1' := funext fun k => funext (e1 k)
  obtain rfl : b1 = b1' := funext f1
  obtain rfl : w2 = w2' := funext fun j => funext (e2 j)
  obtain rfl : b2 = b2' := funext f2
  subst eq
  rfl

/-- The whole array: at row r, the two layers on row r of the left array. -/
def mlp (h : S100000x64.Idx → EReal) (w1 : S64x128.Idx → EReal) (b1 : S1x128.Idx → EReal) (w2 : S128x64.Idx → EReal)
    (b2 : S1x64.Idx → EReal) : S100000x64.Idx → EReal :=
  fun i => row (fun k => h (ix2 ⟨(i 0).val, (i 0).isLt⟩ k)) (fun k j => w1 (ix2 k j)) (fun j => b1 (ix2 (0 : Fin 1) j))
    (fun j q => w2 (ix2 j q)) (fun q => b2 (ix2 (0 : Fin 1) q)) ⟨(i 1).val, (i 1).isLt⟩

theorem rows_mlp (h : S100000x64.Idx → EReal) (w1 : S64x128.Idx → EReal) (b1 : S1x128.Idx → EReal) (w2 : S128x64.Idx → EReal)
    (b2 : S1x64.Idx → EReal) :
    Rows (mlp h w1 b1 w2 b2) fun r q => row (fun k => h (ix2 r k)) (fun k j => w1 (ix2 k j)) (fun j => b1 (ix2 (0 : Fin 1) j))
      (fun j q => w2 (ix2 j q)) (fun q => b2 (ix2 (0 : Fin 1) q)) q := fun _ _ => rfl

/-- The body's stored value, row by row. -/
theorem rows_pay (x0 : Vec Ideal S5000x64 .f32) (x1 : Vec Ideal S64x128 .f32) (x2 : Vec Ideal S1x128 .f32)
    (x3 : Vec Ideal S128x64 .f32) (x4 : Vec Ideal S1x64 .f32) :
    Rows (k1_pay1 x0 x1 x2 x3 x4) fun p q => row (fun k => x0 (ix2 p k)) (fun k j => x1 (ix2 k j)) (fun j => x2 (ix2 (0 : Fin 1) j))
      (fun j q => x3 (ix2 j q)) (fun q => x4 (ix2 (0 : Fin 1) q)) q := by
  unfold k1_pay1
  simp only [shapeCast_self]
  exact rows_maximumf
    (rows_addf
      (rows_matmul ⟨rfl, rfl, rfl, rfl, rfl, rfl⟩ none
        (rows_truncf _ (rows_maximumf
          (rows_addf
            (rows_matmul ⟨rfl, rfl, rfl, rfl, rfl, rfl⟩ none (rows_truncf _ (rows_self x0)) (rows_truncf _ (rows_self x1)))
            (fun p j => broadcastTo_1b_ab_apply x2 broadcasts_S1x128_S5000x128 p j))
          (rows_broadcast _)))
        (rows_truncf _ (rows_self x3)))
      (fun p q => broadcastTo_1b_ab_apply x4 broadcasts_S1x64_S5000x64 p q))
    (rows_broadcast _)

/-- Where the windows' blocks sit: the left operand's and the output's block at point t start at row 5000 t, every
    weight and bias block is its whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The left operand's block at point t is rows 5000 t … 5000 t + 4999 of its array. -/
theorem left_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v49 : S100000x64.Idx → EReal) k := by
  obtain ⟨e0, e1, -⟩ := idx_facts t
  unfold iblk1
  rw [View.read_apply]
  show V c main_v49 _ = V c main_v49 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The first weight block is its whole array. -/
theorem w1_apply (c : Dev nD) (t : Fin cfg1.N) (x : S64x128.Idx) :
    (iblk1 V c 1 t : Vec Ideal S64x128 .f32) x = (V c main_arg4 : S64x128.Idx → EReal) x := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t 0 * 64 + 1 * (x 0).val = (x 0).val; rw [e0]; omega
  | ⟨1, _⟩ => show win1_1.index t 1 * 128 + 1 * (x 1).val = (x 1).val; rw [e1]; omega

/-- The first bias block is its whole array. -/
theorem b1_apply (c : Dev nD) (t : Fin cfg1.N) (x : S1x128.Idx) :
    (iblk1 V c 2 t : Vec Ideal S1x128 .f32) x = (V c main_v50 : S1x128.Idx → EReal) x := by
  obtain ⟨-, -, -, -, e0, e1, -⟩ := idx_facts t
  unfold iblk1
  rw [View.read_apply]
  show V c main_v50 _ = V c main_v50 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The second weight block is its whole array. -/
theorem w2_apply (c : Dev nD) (t : Fin cfg1.N) (x : S128x64.Idx) :
    (iblk1 V c 3 t : Vec Ideal S128x64 .f32) x = (V c main_arg6 : S128x64.Idx → EReal) x := by
  obtain ⟨-, -, -, -, -, -, e0, e1, -⟩ := idx_facts t
  unfold iblk1
  rw [View.read_apply]
  show V c main_arg6 _ = V c main_arg6 _
  congr 1
  funext a
  apply Fin.ext
  match a with
  | ⟨0, _⟩ => show win1_3.index t 0 * 128 + 1 * (x 0).val = (x 0).val; rw [e0]; omega
  | ⟨1, _⟩ => show win1_3.index t 1 * 64 + 1 * (x 1).val = (x 1).val; rw [e1]; omega

/-- The second bias block is its whole array. -/
theorem b2_apply (c : Dev nD) (t : Fin cfg1.N) (x : S1x64.Idx) :
    (iblk1 V c 4 t : Vec Ideal S1x64 .f32) x = (V c main_v51 : S1x64.Idx → EReal) x := by
  obtain ⟨-, -, -, -, -, -, -, -, e0, e1, -⟩ := idx_facts t
  unfold iblk1
  rw [View.read_apply]
  show V c main_v51 _ = V c main_v51 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- What point t writes back is block t of the whole array. -/
theorem flushed_eq (c : Dev nD) (t : Fin cfg1.N) :
    (dat1 V c).flushed 5 t = ((cfg1.win 5).blk t).view.read (Elt Ideal)
      (mlp (V c main_v49) (V c main_arg4) (V c main_v50) (V c main_arg6) (V c main_v51)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e0, e1⟩ := idx_facts t
  rw [View.read_apply]
  unfold mlp
  refine (rows_pay _ _ _ _ _ p q).trans ?_
  rw [cast_eq]
  refine row_congr (fun k => ?_) (fun k j => ?_) (fun j => ?_) (fun j q => ?_) (fun q => ?_) ?_
  · refine left_apply V c t (ix2 p k) _ ?_ rfl
    show win1_5.index t 0 * 5000 + 1 * p.val = 5000 * t.val + p.val
    rw [e0]; omega
  · exact w1_apply V c t (ix2 k j)
  · exact b1_apply V c t (ix2 0 j)
  · exact w2_apply V c t (ix2 j q)
  · exact b2_apply V c t (ix2 0 q)
  · apply Fin.ext
    show q.val = win1_5.index t 1 * 64 + 1 * q.val
    rw [e1]; omega

/-- The output's blocks cover its array: row r lies in the block of point r / 5000. -/
theorem cover (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  have ht : (i 0).val / 5000 < cfg1.N := by rw [show cfg1.N = 20 from N_1]; omega
  refine ⟨⟨(i 0).val / 5000, ht⟩, flush1_5 _, ?_⟩
  obtain ⟨-, -, -, -, -, -, -, -, -, -, e0, e1⟩ := idx_facts ⟨(i 0).val / 5000, ht⟩
  show i ∈ ((View.whole main_v52).slice (win1_5.rect ⟨(i 0).val / 5000, ht⟩)).set
  rw [View.set_slice_whole, Rect.mem_set_unit]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 64 ≤ (i 1).val ∧ (i 1).val < win1_5.index ⟨(i 0).val / 5000, ht⟩ 1 * 64 + 64
    rw [e1]; omega

/-- The array after the region is the two layers, row by row, of the arrays the region found. -/
theorem final (c : Dev nD) : (dat1 V c).arrAt 5 cfg1.N
    = mlp (V c main_v49) (V c main_arg4) (V c main_v50) (V c main_arg6) (V c main_v51) :=
  (dat1 V c).arrAt_eq_of_cover 5 _ (fun t _ => flushed_eq V c t) cover

end Cert.KernelIdeal.Blocks1

end
-- ==== Proof.Blocks2.lean ====
/-
  The last dense product, h2 @ W2, computed 5000 rows at a time.

  The region's output array has 100000 rows and 32 columns; grid point t writes rows 5000 t … 5000 t + 4999. The body
  views its block of the left array through an identity reshape, narrows both operands to half width (the identity on
  the extended reals) and multiplies; so the block a point writes is the product of its 5000 rows of the left array
  with the whole right array, and the array after the region holds, at row r and column q, the sum over k of
  left (r, k) * right (k, q).
-/
import proofs.«133308_j89498528514672_1_alg».proof.Proof.Gen.KernelIdeal.Frame
import proofs.«133308_j89498528514672_1_alg».proof.Proof.LibRowWise
import Idealize.ShloMosaic.Lib.Pipeline.Value
import Idealize.ShloMosaic.Lib.ValueIdx

set_option maxRecDepth 16384

noncomputable section

open scoped BigOperators

namespace Cert.KernelIdeal.Blocks2

open Cert.KernelIdeal Cert.KernelIdeal.Gen
open Idealize.ShloMosaic Idealize.ShloMosaic.TcCoe Idealize.SL.Sem
open Idealize.ShloMosaic.ValueIdx Idealize.ShloMosaic.RowWise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: entry (r, q) is the sum over k of left (r, k) * right (k, q). -/
def prod (a0 : S100000x64.Idx → EReal) (a1 : S64x32.Idx → EReal) : S100000x32.Idx → EReal :=
  fun i => ∑ k : Fin 64, a0 (ix2 ⟨(i 0).val, (i 0).isLt⟩ k) * a1 (ix2 k ⟨(i 1).val, (i 1).isLt⟩)

theorem rows_prod (a0 : S100000x64.Idx → EReal) (a1 : S64x32.Idx → EReal) :
    Rows (prod a0 a1) fun r q => ∑ k : Fin 64, a0 (ix2 r k) * a1 (ix2 k q) := fun _ _ => rfl

/-- The body's stored value, row by row: a block of rows times the right operand. -/
theorem rows_pay (x0 : Vec Ideal S5000x64 .f32) (x1 : Vec Ideal S64x32 .f32) :
    Rows (k2_pay1 x0 x1) fun p q => ∑ k : Fin 64, x0 (ix2 p k) * x1 (ix2 k q) := by
  unfold k2_pay1
  simp only [shapeCast_self]
  exact rows_matmul ⟨rfl, rfl, rfl, rfl, rfl, rfl⟩ none (rows_truncf _ (rows_self x0)) (rows_truncf _ (rows_self x1))

/-- Where the windows' blocks sit: the left operand's and the output's block at point t start at row 5000 t, the
    right operand's block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000 t … 5000 t + 4999 of its array. -/
theorem left_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v52 : S100000x64.Idx → EReal) k := by
  obtain ⟨e0, e1, -⟩ := idx_facts t
  unfold iblk2
  rw [View.read_apply]
  show V c main_v52 _ = V c main_v52 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The right operand's block at every point is its whole array. -/
theorem right_apply (c : Dev nD) (t : Fin cfg2.N) (x : S64x32.Idx) :
    (iblk2 V c 1 t : Vec Ideal S64x32 .f32) x = (V c main_arg8 : S64x32.Idx → EReal) x := by
  obtain ⟨-, -, e0, e1, -⟩ := idx_facts t
  unfold iblk2
  rw [View.read_apply]
  show V c main_arg8 _ = V c main_arg8 _
  congr 1
  funext a
  apply Fin.ext
  match a with
  | ⟨0, _⟩ => show win2_1.index t 0 * 64 + 1 * (x 0).val = (x 0).val; rw [e0]; omega
  | ⟨1, _⟩ => show win2_1.index t 1 * 32 + 1 * (x 1).val = (x 1).val; rw [e1]; omega

/-- What point t writes back is block t of the whole product. -/
theorem flushed_eq (c : Dev nD) (t : Fin cfg2.N) :
    (dat2 V c).flushed 2 t = ((cfg2.win 2).blk t).view.read (Elt Ideal) (prod (V c main_v52) (V c main_arg8)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  funext j
  obtain ⟨p, q, rfl⟩ : ∃ (p : Fin 5000) (q : Fin 32), j = ix2 p q := ⟨j 0, j 1, eq_ix2 j⟩
  obtain ⟨-, -, -, -, e0, e1⟩ := idx_facts t
  rw [View.read_apply]
  unfold prod
  refine (rows_pay _ _ p q).trans (Finset.sum_congr rfl fun k _ => ?_)
  refine congrArg₂ (· * ·) (left_apply V c t _ _ ?_ rfl) (right_apply V c t _ |>.trans ?_)
  · show win2_2.index t 0 * 5000 + 1 * p.val = 5000 * t.val + p.val
    rw [e0]; omega
  · refine congrArg (V c main_arg8 : S64x32.Idx → EReal) ?_
    funext a
    apply Fin.ext
    match a with
    | ⟨0, _⟩ => rfl
    | ⟨1, _⟩ => show q.val = win2_2.index t 1 * 32 + 1 * q.val; rw [e1]; omega

/-- The output's blocks cover its array: row r lies in the block of point r / 5000. -/
theorem cover (i : S100000x32.Idx) : ∃ t : Fin cfg2.N, (cfg2.win 2).flush t = true ∧ i ∈ ((cfg2.win 2).blk t).view.set := by
  have h0 : (i 0).val < 100000 := (i 0).isLt
  have h1 : (i 1).val < 32 := (i 1).isLt
  have ht : (i 0).val / 5000 < cfg2.N := by rw [show cfg2.N = 20 from N_2]; omega
  refine ⟨⟨(i 0).val / 5000, ht⟩, flush2_2 _, ?_⟩
  obtain ⟨-, -, -, -, e0, e1⟩ := idx_facts ⟨(i 0).val / 5000, ht⟩
  show i ∈ ((View.whole main_v53).slice (win2_2.rect ⟨(i 0).val / 5000, ht⟩)).set
  rw [View.set_slice_whole, Rect.mem_set_unit]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ 1 * 32 ≤ (i 1).val ∧ (i 1).val < win2_2.index ⟨(i 0).val / 5000, ht⟩ 1 * 32 + 32
    rw [e1]; omega

/-- The array after the region is the whole product of the arrays the region found. -/
theorem final (c : Dev nD) : (dat2 V c).arrAt 2 cfg2.N = prod (V c main_v52) (V c main_arg8) :=
  (dat2 V c).arrAt_eq_of_cover 2 _ (fun t _ => flushed_eq V c t) cover

end Cert.KernelIdeal.Blocks2

end
-- ==== Proof.HostK.lean ====
/-
  The host operations of the kernel's program, stretch by stretch, read as the stages of the reference.

  Around its three dense regions the kernel's program applies the same host operations as the reference: the edge lists
  with self-loops and the symmetric normalisation before the first region; the gather of rows, their scaling and
  scatter-add, the bias and the rectifier between the first and the second region; the same aggregation and bias after
  the third. Each stretch is read here from an arbitrary valuation of the buffers it starts from: a buffer the stretch
  does not write keeps its contents, and a buffer it computes holds the reference's stage function of the buffers it
  reads, so that the aggregation itself is never opened.
-/
import proofs.«133308_j89498528514672_1_alg».proof.Proof.Gen.KernelIdeal.Frame
import proofs.«133308_j89498528514672_1_alg».proof.Proof.RefRead
import Idealize.ShloMosaic.Lib.StableHlo.Run
import Idealize.ShloMosaic.Lib.ValueLayout

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.PRead (val_main_v3 val_main_v6 val_main_v31 val_main_v32 val_main_v49 val_main_v59 val_main_v60 val_main_v76)

variable {F : FTy → Type} [FloatOps F]
variable (Wx : Valuation τ sig (Elt F))

/-- The three stretches before the first region. -/
abbrev pre : Valuation τ sig (Elt F) := after hostOps0_2 (after hostOps0_1 (after hostOps0 Wx))
/-- The three stretches between the first and the second region. -/
abbrev mid : Valuation τ sig (Elt F) := after hostOps1_2 (after hostOps1_1 (after hostOps1 Wx))
/-- The stretch after the third region. -/
abbrev post : Valuation τ sig (Elt F) := after hostOps3 Wx

/-- Reads what the one-pass result lemmas leave unread: the operands inside a concatenate's list. -/
local macro "inner_results" : tactic => `(tactic| (repeat (first
  | rw [nullary_result] | rw [unary_result] | rw [binary_result] | rw [ternary_result] | rw [reshape_result]
  | (rw [nullary_result_ne]; rotate_left; decide) | (rw [unary_result_ne]; rotate_left; decide)
  | (rw [binary_result_ne]; rotate_left; decide) | (rw [ternary_result_ne]; rotate_left; decide)
  | (rw [reshape_result_ne]; rotate_left; decide))))

/-! ## Before the first region: the edge lists and the normalisation -/

set_option maxHeartbeats 2000000 in
theorem pre_v3 : pre Wx (Proc.devRef .tc main_v3) = val_main_v3 (F := F) (Wx (Proc.devRef .tc main_arg1)) := by
  after_results_simp; inner_results; rfl
set_option maxHeartbeats 2000000 in
theorem pre_v6 : pre Wx (Proc.devRef .tc main_v6) = val_main_v6 (F := F) (Wx (Proc.devRef .tc main_arg1)) := by
  after_results_simp; inner_results; rfl
set_option maxHeartbeats 4000000 in
theorem pre_v31 : pre Wx (Proc.devRef .tc main_v31) = val_main_v31 (F := F) (Wx (Proc.devRef .tc main_arg1)) := by
  after_results_simp; inner_results; rfl

set_option maxHeartbeats 2000000 in
theorem pre_arg0 : pre Wx (Proc.devRef .tc main_arg0) = Wx (Proc.devRef .tc main_arg0) := by after_results_simp
set_option maxHeartbeats 2000000 in
theorem pre_arg2 : pre Wx (Proc.devRef .tc main_arg2) = Wx (Proc.devRef .tc main_arg2) := by after_results_simp
set_option maxHeartbeats 2000000 in
theorem pre_arg3 : pre Wx (Proc.devRef .tc main_arg3) = Wx (Proc.devRef .tc main_arg3) := by after_results_simp
set_option maxHeartbeats 2000000 in
theorem pre_arg4 : pre Wx (Proc.devRef .tc main_arg4) = Wx (Proc.devRef .tc main_arg4) := by after_results_simp
set_option maxHeartbeats 2000000 in
theorem pre_arg5 : pre Wx (Proc.devRef .tc main_arg5) = Wx (Proc.devRef .tc main_arg5) := by after_results_simp
set_option maxHeartbeats 2000000 in
theorem pre_arg6 : pre Wx (Proc.devRef .tc main_arg6) = Wx (Proc.devRef .tc main_arg6) := by after_results_simp
set_option maxHeartbeats 2000000 in
theorem pre_arg7 : pre Wx (Proc.devRef .tc main_arg7) = Wx (Proc.devRef .tc main_arg7) := by after_results_simp
set_option maxHeartbeats 2000000 in
theorem pre_arg8 : pre Wx (Proc.devRef .tc main_arg8) = Wx (Proc.devRef .tc main_arg8) := by after_results_simp
set_option maxHeartbeats 2000000 in
theorem pre_arg9 : pre Wx (Proc.devRef .tc main_arg9) = Wx (Proc.devRef .tc main_arg9) := by after_results_simp

/-! ## Between the first and the second region: aggregation, bias, rectifier; the two bias rows laid out -/

set_option maxHeartbeats 2000000 in
theorem mid_v3 : mid Wx (Proc.devRef .tc main_v3) = Wx (Proc.devRef .tc main_v3) := by after_results_simp
set_option maxHeartbeats 2000000 in
theorem mid_v6 : mid Wx (Proc.devRef .tc main_v6) = Wx (Proc.devRef .tc main_v6) := by after_results_simp
set_option maxHeartbeats 2000000 in
theorem mid_v31 : mid Wx (Proc.devRef .tc main_v31) = Wx (Proc.devRef .tc main_v31) := by after_results_simp
set_option maxHeartbeats 2000000 in
theorem mid_arg4 : mid Wx (Proc.devRef .tc main_arg4) = Wx (Proc.devRef .tc main_arg4) := by after_results_simp
set_option maxHeartbeats 2000000 in
theorem mid_arg6 : mid Wx (Proc.devRef .tc main_arg6) = Wx (Proc.devRef .tc main_arg6) := by after_results_simp
set_option maxHeartbeats 2000000 in
theorem mid_arg8 : mid Wx (Proc.devRef .tc main_arg8) = Wx (Proc.devRef .tc main_arg8) := by after_results_simp
set_option maxHeartbeats 2000000 in
theorem mid_arg9 : mid Wx (Proc.devRef .tc main_arg9) = Wx (Proc.devRef .tc main_arg9) := by after_results_simp

set_option maxHeartbeats 4000000 in
/-- The second region's left operand is the reference's rectified first convolution, when the first region's output
    is the reference's first product and the edge lists and the normalisation are the reference's. -/
theorem mid_v49 (a0 : (⟨Cert.ReferenceIdeal.S100000x128, .f32⟩ : BufTy).Contents (Elt F))
    (a1 : (⟨Cert.ReferenceIdeal.S2x1600000, .i32⟩ : BufTy).Contents (Elt F))
    (a2 : (⟨Cert.ReferenceIdeal.S128x64, .f32⟩ : BufTy).Contents (Elt F))
    (a3 : (⟨Cert.ReferenceIdeal.S64, .f32⟩ : BufTy).Contents (Elt F))
    (h32 : Wx (Proc.devRef .tc main_v32) = val_main_v32 (F := F) a0 a2)
    (h3 : Wx (Proc.devRef .tc main_v3) = val_main_v3 (F := F) a1)
    (h6 : Wx (Proc.devRef .tc main_v6) = val_main_v6 (F := F) a1)
    (h31 : Wx (Proc.devRef .tc main_v31) = val_main_v31 (F := F) a1)
    (ha3 : Wx (Proc.devRef .tc main_arg3) = a3) :
    mid Wx (Proc.devRef .tc main_v49) = val_main_v49 (F := F) a0 a1 a2 a3 := by
  after_results_simp
  rw [h32, h3, h6, h31, ha3]
  rfl

set_option maxHeartbeats 2000000 in
/-- The first bias of the dense block, laid out as a row. -/
theorem mid_v50_apply (j : Fin 128) :
    (mid Wx (Proc.devRef .tc main_v50) : S1x128.Idx → Elt F .f32) (ix2 (0 : Fin 1) j)
      = (Wx (Proc.devRef .tc main_arg5) : S128.Idx → Elt F .f32) (ix1 j) := by
  after_results_simp
  exact shapeCast_a_1a_apply (Wx (Proc.devRef .tc main_arg5) : S128.Idx → Elt F .f32) shapeCasts_S128_S1x128 0 j

set_option maxHeartbeats 2000000 in
/-- The second bias of the dense block, laid out as a row. -/
theorem mid_v51_apply (j : Fin 64) :
    (mid Wx (Proc.devRef .tc main_v51) : S1x64.Idx → Elt F .f32) (ix2 (0 : Fin 1) j)
      = (Wx (Proc.devRef .tc main_arg7) : S64.Idx → Elt F .f32) (ix1 j) := by
  after_results_simp
  exact shapeCast_a_1a_apply (Wx (Proc.devRef .tc main_arg7) : S64.Idx → Elt F .f32) shapeCasts_S64_S1x64 0 j

/-! ## After the third region: the second aggregation and its bias -/

set_option maxHeartbeats 4000000 in
/-- The result is the reference's, when the third region's output is the reference's last product and the edge lists
    and the normalisation are the reference's. -/
theorem post_v69 (a0 : (⟨Cert.ReferenceIdeal.S100000x128, .f32⟩ : BufTy).Contents (Elt F))
    (a1 : (⟨Cert.ReferenceIdeal.S2x1600000, .i32⟩ : BufTy).Contents (Elt F))
    (a2 : (⟨Cert.ReferenceIdeal.S128x64, .f32⟩ : BufTy).Contents (Elt F))
    (a3 : (⟨Cert.ReferenceIdeal.S64, .f32⟩ : BufTy).Contents (Elt F))
    (a4 : (⟨Cert.ReferenceIdeal.S64x128, .f32⟩ : BufTy).Contents (Elt F))
    (a5 : (⟨Cert.ReferenceIdeal.S128, .f32⟩ : BufTy).Contents (Elt F))
    (a6 : (⟨Cert.ReferenceIdeal.S128x64, .f32⟩ : BufTy).Contents (Elt F))
    (a7 : (⟨Cert.ReferenceIdeal.S64, .f32⟩ : BufTy).Contents (Elt F))
    (a8 : (⟨Cert.ReferenceIdeal.S64x32, .f32⟩ : BufTy).Contents (Elt F))
    (a9 : (⟨Cert.ReferenceIdeal.S32, .f32⟩ : BufTy).Contents (Elt F))
    (h53 : Wx (Proc.devRef .tc main_v53) = val_main_v60 (F := F) a0 a1 a2 a3 a4 a5 a6 a7 a8)
    (h3 : Wx (Proc.devRef .tc main_v3) = val_main_v3 (F := F) a1)
    (h6 : Wx (Proc.devRef .tc main_v6) = val_main_v6 (F := F) a1)
    (h31 : Wx (Proc.devRef .tc main_v31) = val_main_v31 (F := F) a1)
    (ha9 : Wx (Proc.devRef .tc main_arg9) = a9) :
    post Wx (Proc.devRef .tc main_v69) = val_main_v76 (F := F) a0 a1 a2 a3 a4 a5 a6 a7 a8 a9 := by
  after_results_simp
  rw [h53, h3, h6, h31, ha9]
  rfl

end Cert.KernelIdeal.HostK

end
-- ==== Proof.Bridge.lean ====
/-
  The kernel's result is the reference's result function of the kernel's own arguments.

  The program is walked from the launch to the return. Before the first region the edge lists and the normalisation are
  the reference's stages. The first region leaves x @ W1: 5000 rows at a time or all rows at once, each entry is the same
  sum over k. The stretch after it is the reference's aggregation, bias and rectifier applied to that array. The second
  region leaves the two dense layers with their rectifiers, row by row the same function as the reference's
  dot products, broadcast biases and maxima with zero. The third region leaves the last product, and the last stretch is
  the reference's second aggregation. A change of float format is the identity on the extended reals, so no rounding
  separates the two sides, and no algebraic law beyond this regrouping by rows is used.
-/
import proofs.«133308_j89498528514672_1_alg».proof.Proof.KernelRun
import proofs.«133308_j89498528514672_1_alg».proof.Proof.Blocks0
import proofs.«133308_j89498528514672_1_alg».proof.Proof.Blocks1
import proofs.«133308_j89498528514672_1_alg».proof.Proof.Blocks2
import proofs.«133308_j89498528514672_1_alg».proof.Proof.HostK

set_option maxRecDepth 16384

noncomputable section

open scoped BigOperators

namespace Cert.KernelIdeal.Bridge

open Cert.KernelIdeal Cert.KernelIdeal.Gen
open Idealize.ShloMosaic Idealize.ShloMosaic.TcCoe Idealize.SL.Sem Idealize.ShloMosaic.StableHlo
open Idealize.ShloMosaic.ValueIdx Idealize.ShloMosaic.RowWise
open Cert.ReferenceIdeal.PRead

/-! ## The reference's dense block, row by row -/

theorem rows_zero128 : Rows (val_main_call2_v0 (F := Ideal)) fun _ _ => Blocks1.zero := by
  unfold val_main_call2_v0 val_main_call2_cst
  exact rows_hostConstant _ _

theorem rows_zero64 : Rows (val_main_call3_v0 (F := Ideal)) fun _ _ => Blocks1.zero := by
  unfold val_main_call3_v0 val_main_call3_cst
  exact rows_hostConstant _ _

/-- The first bias, laid out as a row and repeated down the rows. -/
theorem rows_bias128 (a5 : (⟨Cert.ReferenceIdeal.S128, .f32⟩ : BufTy).Contents (Elt Ideal)) : Rows (val_main_v52 (F := Ideal) a5) fun _ j => a5 (ix1 j) := fun p j => by
  rw [val_main_v52_apply, val_main_v51_apply]
  exact congrArg a5 (funext fun a => Fin.ext (by match a with | ⟨0, _⟩ => rfl))

/-- The second bias, laid out as a row and repeated down the rows. -/
theorem rows_bias64 (a7 : (⟨Cert.ReferenceIdeal.S64, .f32⟩ : BufTy).Contents (Elt Ideal)) : Rows (val_main_v57 (F := Ideal) a7) fun _ j => a7 (ix1 j) := fun p j => by
  rw [val_main_v57_apply, val_main_v56_apply]
  exact congrArg a7 (funext fun a => Fin.ext (by match a with | ⟨0, _⟩ => rfl))

/-- The reference's two dense layers with their rectifiers are, row by row, the two layers on that row of the
    rectified first convolution. -/
theorem rows_ref59 (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x64, .f32⟩ : BufTy).Contents (Elt Ideal)) (a3 : (⟨Cert.ReferenceIdeal.S64, .f32⟩ : BufTy).Contents (Elt Ideal)) (a4 : (⟨Cert.ReferenceIdeal.S64x128, .f32⟩ : BufTy).Contents (Elt Ideal)) (a5 : (⟨Cert.ReferenceIdeal.S128, .f32⟩ : BufTy).Contents (Elt Ideal)) (a6 : (⟨Cert.ReferenceIdeal.S128x64, .f32⟩ : BufTy).Contents (Elt Ideal)) (a7 : (⟨Cert.ReferenceIdeal.S64, .f32⟩ : BufTy).Contents (Elt Ideal)) :
    Rows (val_main_v59 (F := Ideal) a0 a1 a2 a3 a4 a5 a6 a7) fun r q =>
      Blocks1.row (fun k => val_main_v49 (F := Ideal) a0 a1 a2 a3 (ix2 r k)) (fun k j => a4 (ix2 k j)) (fun j => a5 (ix1 j))
        (fun j q => a6 (ix2 j q)) (fun q => a7 (ix1 q)) q := by
  unfold val_main_v59 val_main_v58 val_main_v55 val_main_v54 val_main_v53 val_main_v50
  exact rows_maximumf
    (rows_addf
      (rows_dotGeneral ⟨rfl, rfl, rfl, rfl, rfl, rfl⟩ none
        (rows_maximumf
          (rows_addf (rows_dotGeneral ⟨rfl, rfl, rfl, rfl, rfl, rfl⟩ none (rows_self _) (rows_self a4)) (rows_bias128 a5))
          rows_zero128)
        (rows_self a6))
      (rows_bias64 a7))
    rows_zero64

/-! ## The kernel's program, boundary by boundary -/

variable (m : (ℓ : Loc nD τ sig) → Buf (Elt Ideal) ℓ) (ρ : Dev nD → PrngReg) (c : Dev nD)

/-- The kernel's argument 0 as launched, read at the reference's type. -/
abbrev A0 : (⟨Cert.ReferenceIdeal.S100000x128, .f32⟩ : BufTy).Contents (Elt Ideal) := m ((c : Thread nD τ).loc main_arg0)
/-- The kernel's argument 1 as launched, read at the reference's type. -/
abbrev A1 : (⟨Cert.ReferenceIdeal.S2x1600000, .i32⟩ : BufTy).Contents (Elt Ideal) := m ((c : Thread nD τ).loc main_arg1)
/-- The kernel's argument 2 as launched, read at the reference's type. -/
abbrev A2 : (⟨Cert.ReferenceIdeal.S128x64, .f32⟩ : BufTy).Contents (Elt Ideal) := m ((c : Thread nD τ).loc main_arg2)
/-- The kernel's argument 3 as launched, read at the reference's type. -/
abbrev A3 : (⟨Cert.ReferenceIdeal.S64, .f32⟩ : BufTy).Contents (Elt Ideal) := m ((c : Thread nD τ).loc main_arg3)
/-- The kernel's argument 4 as launched, read at the reference's type. -/
abbrev A4 : (⟨Cert.ReferenceIdeal.S64x128, .f32⟩ : BufTy).Contents (Elt Ideal) := m ((c : Thread nD τ).loc main_arg4)
/-- The kernel's argument 5 as launched, read at the reference's type. -/
abbrev A5 : (⟨Cert.ReferenceIdeal.S128, .f32⟩ : BufTy).Contents (Elt Ideal) := m ((c : Thread nD τ).loc main_arg5)
/-- The kernel's argument 6 as launched, read at the reference's type. -/
abbrev A6 : (⟨Cert.ReferenceIdeal.S128x64, .f32⟩ : BufTy).Contents (Elt Ideal) := m ((c : Thread nD τ).loc main_arg6)
/-- The kernel's argument 7 as launched, read at the reference's type. -/
abbrev A7 : (⟨Cert.ReferenceIdeal.S64, .f32⟩ : BufTy).Contents (Elt Ideal) := m ((c : Thread nD τ).loc main_arg7)
/-- The kernel's argument 8 as launched, read at the reference's type. -/
abbrev A8 : (⟨Cert.ReferenceIdeal.S64x32, .f32⟩ : BufTy).Contents (Elt Ideal) := m ((c : Thread nD τ).loc main_arg8)
/-- The kernel's argument 9 as launched, read at the reference's type. -/
abbrev A9 : (⟨Cert.ReferenceIdeal.S32, .f32⟩ : BufTy).Contents (Elt Ideal) := m ((c : Thread nD τ).loc main_arg9)

/-! ### At the first region's entry -/

theorem w3_v3 : W3 m ρ c (Proc.devRef .tc main_v3) = val_main_v3 (F := Ideal) (A1 m c) := HostK.pre_v3 (W0 m ρ c)
theorem w3_v6 : W3 m ρ c (Proc.devRef .tc main_v6) = val_main_v6 (F := Ideal) (A1 m c) := HostK.pre_v6 (W0 m ρ c)
theorem w3_v31 : W3 m ρ c (Proc.devRef .tc main_v31) = val_main_v31 (F := Ideal) (A1 m c) := HostK.pre_v31 (W0 m ρ c)
theorem w3_arg0 : W3 m ρ c (Proc.devRef .tc main_arg0) = A0 m c := HostK.pre_arg0 (W0 m ρ c)
theorem w3_arg2 : W3 m ρ c (Proc.devRef .tc main_arg2) = A2 m c := HostK.pre_arg2 (W0 m ρ c)
theorem w3_arg3 : W3 m ρ c (Proc.devRef .tc main_arg3) = A3 m c := HostK.pre_arg3 (W0 m ρ c)
theorem w3_arg4 : W3 m ρ c (Proc.devRef .tc main_arg4) = A4 m c := HostK.pre_arg4 (W0 m ρ c)
theorem w3_arg5 : W3 m ρ c (Proc.devRef .tc main_arg5) = A5 m c := HostK.pre_arg5 (W0 m ρ c)
theorem w3_arg6 : W3 m ρ c (Proc.devRef .tc main_arg6) = A6 m c := HostK.pre_arg6 (W0 m ρ c)
theorem w3_arg7 : W3 m ρ c (Proc.devRef .tc main_arg7) = A7 m c := HostK.pre_arg7 (W0 m ρ c)
theorem w3_arg8 : W3 m ρ c (Proc.devRef .tc main_arg8) = A8 m c := HostK.pre_arg8 (W0 m ρ c)
theorem w3_arg9 : W3 m ρ c (Proc.devRef .tc main_arg9) = A9 m c := HostK.pre_arg9 (W0 m ρ c)

/-! ### At the first region's exit -/

/-- The first region leaves the reference's first product. -/
theorem w4_v32 : W4 m ρ c (Proc.devRef .tc main_v32) = val_main_v32 (F := Ideal) (A0 m c) (A2 m c) :=
  ((W4_arr m ρ c 2).trans (Blocks0.final (V3 m ρ) c)).trans
    ((congrArg₂ Blocks0.prod (w3_arg0 m ρ c) (w3_arg2 m ρ c)).trans
      (Rows.ext (Blocks0.rows_prod _ _) (by
        unfold val_main_v32
        exact rows_dotGeneral ⟨rfl, rfl, rfl, rfl, rfl, rfl⟩ none (rows_self _) (rows_self _))))
theorem w4_v3 : W4 m ρ c (Proc.devRef .tc main_v3) = val_main_v3 (F := Ideal) (A1 m c) :=
  (W4_of_ne m ρ c main_v3 (by decide)).trans (w3_v3 m ρ c)
theorem w4_v6 : W4 m ρ c (Proc.devRef .tc main_v6) = val_main_v6 (F := Ideal) (A1 m c) :=
  (W4_of_ne m ρ c main_v6 (by decide)).trans (w3_v6 m ρ c)
theorem w4_v31 : W4 m ρ c (Proc.devRef .tc main_v31) = val_main_v31 (F := Ideal) (A1 m c) :=
  (W4_of_ne m ρ c main_v31 (by decide)).trans (w3_v31 m ρ c)
theorem w4_arg3 : W4 m ρ c (Proc.devRef .tc main_arg3) = A3 m c :=
  (W4_of_ne m ρ c main_arg3 (by decide)).trans (w3_arg3 m ρ c)
theorem w4_arg4 : W4 m ρ c (Proc.devRef .tc main_arg4) = A4 m c :=
  (W4_of_ne m ρ c main_arg4 (by decide)).trans (w3_arg4 m ρ c)
theorem w4_arg5 : W4 m ρ c (Proc.devRef .tc main_arg5) = A5 m c :=
  (W4_of_ne m ρ c main_arg5 (by decide)).trans (w3_arg5 m ρ c)
theorem w4_arg6 : W4 m ρ c (Proc.devRef .tc main_arg6) = A6 m c :=
  (W4_of_ne m ρ c main_arg6 (by decide)).trans (w3_arg6 m ρ c)
theorem w4_arg7 : W4 m ρ c (Proc.devRef .tc main_arg7) = A7 m c :=
  (W4_of_ne m ρ c main_arg7 (by decide)).trans (w3_arg7 m ρ c)
theorem w4_arg8 : W4 m ρ c (Proc.devRef .tc main_arg8) = A8 m c :=
  (W4_of_ne m ρ c main_arg8 (by decide)).trans (w3_arg8 m ρ c)
theorem w4_arg9 : W4 m ρ c (Proc.devRef .tc main_arg9) = A9 m c :=
  (W4_of_ne m ρ c main_arg9 (by decide)).trans (w3_arg9 m ρ c)

/-! ### At the second region's entry -/

/-- The second region's left operand is the reference's rectified first convolution. -/
theorem w7_v49 : W7 m ρ c (Proc.devRef .tc main_v49) = val_main_v49 (F := Ideal) (A0 m c) (A1 m c) (A2 m c) (A3 m c) :=
  HostK.mid_v49 (W4 m ρ c) _ _ _ _ (w4_v32 m ρ c) (w4_v3 m ρ c) (w4_v6 m ρ c) (w4_v31 m ρ c) (w4_arg3 m ρ c)
theorem w7_v3 : W7 m ρ c (Proc.devRef .tc main_v3) = val_main_v3 (F := Ideal) (A1 m c) :=
  (HostK.mid_v3 (W4 m ρ c)).trans (w4_v3 m ρ c)
theorem w7_v6 : W7 m ρ c (Proc.devRef .tc main_v6) = val_main_v6 (F := Ideal) (A1 m c) :=
  (HostK.mid_v6 (W4 m ρ c)).trans (w4_v6 m ρ c)
theorem w7_v31 : W7 m ρ c (Proc.devRef .tc main_v31) = val_main_v31 (F := Ideal) (A1 m c) :=
  (HostK.mid_v31 (W4 m ρ c)).trans (w4_v31 m ρ c)
theorem w7_arg4 : W7 m ρ c (Proc.devRef .tc main_arg4) = A4 m c :=
  (HostK.mid_arg4 (W4 m ρ c)).trans (w4_arg4 m ρ c)
theorem w7_arg6 : W7 m ρ c (Proc.devRef .tc main_arg6) = A6 m c :=
  (HostK.mid_arg6 (W4 m ρ c)).trans (w4_arg6 m ρ c)
theorem w7_arg8 : W7 m ρ c (Proc.devRef .tc main_arg8) = A8 m c :=
  (HostK.mid_arg8 (W4 m ρ c)).trans (w4_arg8 m ρ c)
theorem w7_arg9 : W7 m ρ c (Proc.devRef .tc main_arg9) = A9 m c :=
  (HostK.mid_arg9 (W4 m ρ c)).trans (w4_arg9 m ρ c)
theorem w7_v50 (j : Fin 128) :
    (W7 m ρ c (Proc.devRef .tc main_v50) : S1x128.Idx → EReal) (ix2 (0 : Fin 1) j) = A5 m c (ix1 j) :=
  (HostK.mid_v50_apply (W4 m ρ c) j).trans (congrFun (w4_arg5 m ρ c) (ix1 j))
theorem w7_v51 (j : Fin 64) :
    (W7 m ρ c (Proc.devRef .tc main_v51) : S1x64.Idx → EReal) (ix2 (0 : Fin 1) j) = A7 m c (ix1 j) :=
  (HostK.mid_v51_apply (W4 m ρ c) j).trans (congrFun (w4_arg7 m ρ c) (ix1 j))

/-! ### At the second region's exit -/

/-- The second region leaves the reference's two dense layers with their rectifiers. -/
theorem w8_v52 : W8 m ρ c (Proc.devRef .tc main_v52) = val_main_v59 (F := Ideal) (A0 m c) (A1 m c) (A2 m c) (A3 m c) (A4 m c) (A5 m c) (A6 m c) (A7 m c) :=
  ((W8_arr m ρ c 5).trans (Blocks1.final (V7 m ρ) c)).trans
    (Rows.ext
      ((Blocks1.rows_mlp _ _ _ _ _).congr fun r q => Blocks1.row_congr
        (fun k => congrFun (w7_v49 m ρ c) (ix2 r k)) (fun k j => congrFun (w7_arg4 m ρ c) (ix2 k j)) (fun j => w7_v50 m ρ c j)
        (fun j q => congrFun (w7_arg6 m ρ c) (ix2 j q)) (fun q => w7_v51 m ρ c q) rfl)
      (rows_ref59 _ _ _ _ _ _ _ _))
theorem w8_v3 : W8 m ρ c (Proc.devRef .tc main_v3) = val_main_v3 (F := Ideal) (A1 m c) :=
  (W8_of_ne m ρ c main_v3 (by decide)).trans (w7_v3 m ρ c)
theorem w8_v6 : W8 m ρ c (Proc.devRef .tc main_v6) = val_main_v6 (F := Ideal) (A1 m c) :=
  (W8_of_ne m ρ c main_v6 (by decide)).trans (w7_v6 m ρ c)
theorem w8_v31 : W8 m ρ c (Proc.devRef .tc main_v31) = val_main_v31 (F := Ideal) (A1 m c) :=
  (W8_of_ne m ρ c main_v31 (by decide)).trans (w7_v31 m ρ c)
theorem w8_arg8 : W8 m ρ c (Proc.devRef .tc main_arg8) = A8 m c :=
  (W8_of_ne m ρ c main_arg8 (by decide)).trans (w7_arg8 m ρ c)
theorem w8_arg9 : W8 m ρ c (Proc.devRef .tc main_arg9) = A9 m c :=
  (W8_of_ne m ρ c main_arg9 (by decide)).trans (w7_arg9 m ρ c)

/-! ### At the third region's exit -/

/-- The third region leaves the reference's last product. -/
theorem w9_v53 : W9 m ρ c (Proc.devRef .tc main_v53) = val_main_v60 (F := Ideal) (A0 m c) (A1 m c) (A2 m c) (A3 m c) (A4 m c) (A5 m c) (A6 m c) (A7 m c) (A8 m c) :=
  ((W9_arr m ρ c 2).trans (Blocks2.final (V8 m ρ) c)).trans
    ((congrArg₂ Blocks2.prod (w8_v52 m ρ c) (w8_arg8 m ρ c)).trans
      (Rows.ext (Blocks2.rows_prod _ _) (by
        unfold val_main_v60
        exact rows_dotGeneral ⟨rfl, rfl, rfl, rfl, rfl, rfl⟩ none (rows_self _) (rows_self _))))
theorem w9_v3 : W9 m ρ c (Proc.devRef .tc main_v3) = val_main_v3 (F := Ideal) (A1 m c) :=
  (W9_of_ne m ρ c main_v3 (by decide)).trans (w8_v3 m ρ c)
theorem w9_v6 : W9 m ρ c (Proc.devRef .tc main_v6) = val_main_v6 (F := Ideal) (A1 m c) :=
  (W9_of_ne m ρ c main_v6 (by decide)).trans (w8_v6 m ρ c)
theorem w9_v31 : W9 m ρ c (Proc.devRef .tc main_v31) = val_main_v31 (F := Ideal) (A1 m c) :=
  (W9_of_ne m ρ c main_v31 (by decide)).trans (w8_v31 m ρ c)
theorem w9_arg9 : W9 m ρ c (Proc.devRef .tc main_arg9) = A9 m c :=
  (W9_of_ne m ρ c main_arg9 (by decide)).trans (w8_arg9 m ρ c)

/-! ### At the return -/

/-- The result buffer ends at the reference's result function of the kernel's arguments. -/
theorem value : W10 m ρ c (Proc.devRef .tc main_v69) = val_main_v76 (F := Ideal) (A0 m c) (A1 m c) (A2 m c) (A3 m c) (A4 m c) (A5 m c) (A6 m c) (A7 m c) (A8 m c) (A9 m c) :=
  HostK.post_v69 (W9 m ρ c) _ _ _ _ _ _ _ _ _ _ (w9_v53 m ρ c) (w9_v3 m ρ c) (w9_v6 m ρ c) (w9_v31 m ρ c) (w9_arg9 m ρ c)

/-- The kernel's run, read: every weakly fair execution terminates without a fault, the result is the reference's
    result function of the arguments as launched, and the arguments are unchanged. -/
theorem run : θ_run defs (onTc (τ := τ) (main (F := Ideal))) ⟨m, fun _ => 0, ρ⟩ fun r => ∀ c : Dev nD,
      r.2.mem ((c.tc : Thread nD τ).loc main_v69) = val_main_v76 (F := Ideal) (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (value m ρ c), (h c).2⟩) (Valued.run_valued m ρ)

end Cert.KernelIdeal.Bridge

end
-- ==== Proof.lean ====
/-
  A two-layer graph convolution network with a dense block between the layers, against its jnp reference.

  Both programs build the same edge lists (the given edges and one self-loop per node), the same node degrees by a
  scatter-add of ones, and the same symmetric normalisation; a graph convolution is a dense product h @ W followed by a
  gather of its rows along the source list, a scaling by the normalisation, a scatter-add along the destination list and
  a bias. The kernel's program computes the three dense parts (x @ W1; relu (relu (h @ Wl1 + bl1) @ Wl2 + bl2);
  h2 @ W2) in three tiled regions of 5000 rows each, narrowing the operands of every product to half width, and leaves
  everything else on the host, exactly as the reference spells it.

  On the extended reals a change of float format is the identity and a product of a block of rows with a matrix is the
  same rows of the product of all rows with that matrix: entry (r, q) is the sum over k of left (r, k) * right (k, q)
  either way. So each region leaves the array the reference's dot products (with their biases and maxima with zero) leave,
  and the host operations around the regions, being the same operations applied to equal arrays, give equal results. The
  equivalence uses no algebraic law of the extended reals and never opens the precondition.

  The frames of the two kernel programs are the generated ones; the reference's frame is its run with the result dropped;
  the ideal pass rewrote nothing, so there is nothing to preserve.
-/
import proofs.«133308_j89498528514672_1_alg».proof.Defs
import proofs.«133308_j89498528514672_1_alg».proof.Proof.Gen.Kernel
import proofs.«133308_j89498528514672_1_alg».proof.Proof.Gen.Kernel.Frame
import proofs.«133308_j89498528514672_1_alg».proof.Proof.Gen.KernelIdeal
import proofs.«133308_j89498528514672_1_alg».proof.Proof.Gen.KernelIdeal.Frame
import proofs.«133308_j89498528514672_1_alg».proof.Proof.Gen.ReferenceIdeal
import proofs.«133308_j89498528514672_1_alg».proof.Proof.Gen.Pre_finite_inputs
import proofs.«133308_j89498528514672_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.PValue.run (F := Ideal) m ρ)

theorem preserves : Cert.preserves_Kernel_KernelIdeal := trivial

/-- Both runs end with the result at the reference's result function of the arguments: the kernel's by the walk through
    its regions and host stretches, the reference's by its own run; the arguments agree. -/
theorem algebraic : Cert.algebraic_KernelIdeal_ReferenceIdeal := by
  intro m ρ m' ρ' _ hagree
  refine ⟨fun c => Cert.ReferenceIdeal.PRead.val_main_v76 (F := Ideal) (Cert.KernelIdeal.Bridge.A0 m c)
      (Cert.KernelIdeal.Bridge.A1 m c) (Cert.KernelIdeal.Bridge.A2 m c) (Cert.KernelIdeal.Bridge.A3 m c)
      (Cert.KernelIdeal.Bridge.A4 m c) (Cert.KernelIdeal.Bridge.A5 m c) (Cert.KernelIdeal.Bridge.A6 m c)
      (Cert.KernelIdeal.Bridge.A7 m c) (Cert.KernelIdeal.Bridge.A8 m c) (Cert.KernelIdeal.Bridge.A9 m c),
    Cert.KernelIdeal.Bridge.run m ρ, ?_⟩
  refine (θ_run Cert.ReferenceIdeal.defs _ _).mono (fun _ h c => ⟨(h c).1.trans ?_, (h c).2⟩)
    (Cert.ReferenceIdeal.PValue.run (F := Ideal) m' ρ')
  obtain ⟨e0, e1, e2, e3, e4, e5, e6, e7, e8, e9⟩ := hagree c
  rw [Cert.ReferenceIdeal.PRead.val_main_v76_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
